-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg3 : IVec S800000 32) (main_v33 : IVec S_ 1) : IVec S_ 1 :=
  let main_c_12 : IVec S_ 32 := constantI S_ 32 4294917296#32
  let main_v34 : IVec S800000 32 := broadcastInDim S800000 ![] bcast_S_S800000 main_c_12
  let main_v35 : IVec S800000 1 := cmpi .sge main_arg3 main_v34
  let main_c_13 : IVec S_ 32 := constantI S_ 32 50000#32
  let main_v36 : IVec S800000 32 := broadcastInDim S800000 ![] bcast_S_S800000 main_c_13
  let main_v37 : IVec S800000 1 := cmpi .slt main_arg3 main_v36
  let main_v38 : IVec S800000 1 := andi main_v35 main_v37
  let main_c_14 : IVec S_ 1 := constantI S_ 1 1#1
  let main_v39 : IVec S_ 1 := (fun x v => Host.reduce IntOp.andi x v reducesTo_S800000_S_d0 h_S_) main_v38 main_c_14
  let main_v40 : IVec S_ 1 := andi main_v33 main_v39
  main_v40

def fn_part1 {F : FTy → Type} [FloatOps F] (main_arg3 : IVec S800000 32) (main_arg6 : FVec F S128 .f32) (main_arg7 : FVec F S128x256 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_v33

def fn {F : FTy → Type} [FloatOps F] (main_arg0 : FVec F S50000x128 .f32) (main_arg1 : FVec F S50000x128 .f32) (main_arg2 : FVec F S800000 .f32) (main_arg3 : IVec S800000 32) (main_arg4 : IVec S800000 32) (main_arg5 : FVec F S128x128 .f32) (main_arg6 : FVec F S128 .f32) (main_arg7 : FVec F S128x256 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x256 : Shape := ⟨2, ![128, 256]⟩
abbrev S5000x128 : Shape := ⟨2, ![5000, 128]⟩
abbrev S1x128 : Shape := ⟨2, ![1, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000 : Shape := ⟨1, ![50000]⟩
abbrev S50000x1 : Shape := ⟨2, ![50000, 1]⟩
abbrev S5000x1 : Shape := ⟨2, ![5000, 1]⟩

abbrev nBuf : Space → Nat
  | .hbm => 51
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S50000x128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S1, .i32⟩
  | .hbm, ⟨20, _⟩ => ⟨S_, .i32⟩
  | .hbm, ⟨21, _⟩ => ⟨S800000x1, .i32⟩
  | .hbm, ⟨22, _⟩ => ⟨S800000x1, .i1⟩
  | .hbm, ⟨23, _⟩ => ⟨S1x1, .i32⟩
  | .hbm, ⟨24, _⟩ => ⟨S800000x1, .i32⟩
  | .hbm, ⟨25, _⟩ => ⟨S800000x1, .i1⟩
  | .hbm, ⟨26, _⟩ => ⟨S800000x1, .i1⟩
  | .hbm, ⟨27, _⟩ => ⟨S_, .i1⟩
  | .hbm, ⟨28, _⟩ => ⟨S800000, .i1⟩
  | .hbm, ⟨29, _⟩ => ⟨S800000x128, .f32⟩
  | .hbm, ⟨30, _⟩ => ⟨S800000x128, .i1⟩
  | .hbm, ⟨31, _⟩ => ⟨S_, .f32⟩
  | .hbm, ⟨32, _⟩ => ⟨S800000x128, .f32⟩
  | .hbm, ⟨33, _⟩ => ⟨S800000x128, .f32⟩
  | .hbm, ⟨34, _⟩ => ⟨S800000x1, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S50000x1, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S5000x128, .f32⟩
  | .local _ .vmem, ⟨16, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_cst : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_cst_0 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  slices_S128x256_S128x128_0_0 : S128x256.Slices ![0, 0] S128x128
  slices_S128x256_S128x128_0_128 : S128x256.Slices ![0, 128] S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S256x128 : Shape := ⟨2, ![256, 128]⟩

abbrev nBuf : Space → Nat
  | .hbm => 53
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S50000x128, .f32⟩
  | .hbm, ⟨11, _⟩ => ⟨S1x128, .f32⟩
  | .hbm, ⟨12, _⟩ => ⟨S50000x128, .f32⟩
  | .hbm, ⟨13, _⟩ => ⟨S50000x128, .f32⟩
  | .hbm, ⟨14, _⟩ => ⟨S_, .f32⟩
  | .hbm, ⟨15, _⟩ => ⟨S50000x128, .f32⟩
  | .hbm, ⟨16, _⟩ => ⟨S50000x128, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S800000x1, .f32⟩
  | .hbm, ⟨27, _⟩ => ⟨S800000x128, .f32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S_, .f32⟩
  | .hbm, ⟨34, _⟩ => ⟨S50000, .f32⟩
  | .hbm, ⟨35, _⟩ => ⟨S800000x1, .i32⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x256, .f32⟩
  | .hbm, ⟨45, _⟩ => ⟨S256x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call2_cst : Ref sig .tc := ⟨.hbm, 50, rfl⟩
abbrev main_call2_v0 : Ref sig .tc := ⟨.hbm, 51, rfl⟩
abbrev main_v32 : Ref sig .tc := ⟨.hbm, 52, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  transposes_S128x256_S256x128_1_0 : S128x256.Transposes [1, 0] S256x128
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibBroadcastCol.lean ====
import Idealize.ShloMosaic.Lib.Pipeline.Value
import Idealize.ShloMosaic.Lib.ValueIdx

namespace Idealize.ShloMosaic.ValueIdx

open Idealize.ShloMosaic

variable {α : Type}

/-- ONE COLUMN BROADCAST OVER MANY (a keepdims column against a matrix: `vector.broadcast` of `[a, 1]` to `[a, b]`):
    the result reads, at `(p, c)`, the operand's one column at row `p`, whatever the extents `a` and `b`. The companion of the
    library's row form `broadcastTo_1b_ab_apply`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.TileProduct.lean ====
import proofs.«429332_j23278722744483_3_alg».proof.Proof.Gen.KernelIdeal.Frame
import Idealize.ShloMosaic.Lib.ValueIdx
import Idealize.ShloMosaic.Lib.ValueLayout
import Idealize.ShloMosaic.PureOps.Ideal.Laws
import proofs.«429332_j23278722744483_3_alg».proof.Proof.LibBroadcastCol

noncomputable section

namespace Cert.KernelIdeal.Tile

open Cert.KernelIdeal Cert.KernelIdeal.Gen Idealize.ShloMosaic Idealize.ShloMosaic.ValueIdx

/-! ## The kernels' matrix product over one tile of rows, as a plain sum

Both kernels contract a [5000, 128] tile of rows with a [128, 128] matrix along the tile's columns and the matrix's
rows. At the extended reals, into a zero accumulator, entry (p, o) is the sum over k of l(p, k) · r(k, o). -/

theorem tile_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem tile_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem tile_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem tile_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, o) of a tile's product with a square matrix, into zero: ∑ₖ l(p, k) · r(k, o). -/
theorem tile_matmul_apply {φ₁ φ₂ : FTy} (l : FVec Ideal S5000x128 φ₁) (r : FVec Ideal S128x128 φ₂) (p : Fin 5000) (o : Fin 128) :
    matmul (F := Ideal) dot_S5000x128_S128x128_S5000x128_1_0_0_1_n_n none l r (constant S5000x128 .f32 0x00000000#32) (ix2 p o)
      = ∑ k : Fin 128, l (ix2 p k) * r (ix2 k o) := by
  refine (Ideal.matmul_constant_zero_apply dot_S5000x128_S128x128_S5000x128_1_0_0_1_n_n none l r (ix2 p o)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p o) ((ValueIdx.contrEquiv1 dot_S5000x128_S128x128_S5000x128_1_0_0_1_n_n 128 rfl rfl).symm k) = ix2 p k := funext fun a => Fin.ext (by
    match a with
    | ⟨0, _⟩ => exact tile_lhs_0 _ _
    | ⟨1, _⟩ => exact (tile_lhs_1 _ _).trans hk)
  have er : dot_S5000x128_S128x128_S5000x128_1_0_0_1_n_n.rhsIdx (ix2 p o) ((ValueIdx.contrEquiv1 dot_S5000x128_S128x128_S5000x128_1_0_0_1_n_n 128 rfl rfl).symm k) = ix2 k o := funext fun a => Fin.ext (by
    match a with
    | ⟨0, _⟩ => exact (tile_rhs_0 _ _).trans hk
    | ⟨1, _⟩ => exact tile_rhs_1 _ _)
  rw [el, er]

/-- The first kernel's stored value at (p, o): max(∑ₖ x(p, k) · w(k, o) + b(o), 0) — the two narrowings to bf16 are the
    identity on the extended reals, and so is the cast of the square matrix to its own shape. -/
theorem proj_payload_apply (x : Vec Ideal S5000x128 .f32) (w : Vec Ideal S128x128 .f32) (b : Vec Ideal S128 .f32)
    (p : Fin 5000) (o : Fin 128) :
    k0_pay1 (F := Ideal) x w b (ix2 p o) = max ((∑ k : Fin 128, x (ix2 p k) * w (ix2 k o)) + b (ix1 o)) (Ideal.ofBits .f32 0x00000000#32) := by
  unfold k0_pay1
  show max (matmul (F := Ideal) dot_S5000x128_S128x128_S5000x128_1_0_0_1_n_n none (truncf .bf16 x bitsLt_bf16_f32) (truncf .bf16 (shapeCast S128x128 w shapeCasts_S128x128_S128x128) bitsLt_bf16_f32) (constant S5000x128 .f32 0x00000000#32) (ix2 p o)
      + broadcastTo S5000x128 (shapeCast S1x128 b shapeCasts_S128_S1x128) broadcasts_S1x128_S5000x128 (ix2 p o)) (Ideal.ofBits .f32 0x00000000#32) = _
  rw [tile_matmul_apply, broadcastTo_1b_ab_apply, shapeCast_a_1a_apply, shapeCast_self]
  rfl

/-- The second kernel's stored value at (p, o): the messages' row divided by the clamped weight sum of its node, times
    the first weight block, plus the destination features times the second, plus the bias, then the relu:
    max((∑ₖ (n(p, k) / max(s(p), 1)) · a(k, o) + ∑ₖ h(p, k) · b(k, o)) + β(o), 0). -/
theorem combine_payload_apply (s : Vec Ideal S5000x1 .f32) (n : Vec Ideal S5000x128 .f32) (h : Vec Ideal S5000x128 .f32)
    (a : Vec Ideal S128x128 .f32) (b : Vec Ideal S128x128 .f32) (β : Vec Ideal S128 .f32) (p : Fin 5000) (o : Fin 128) :
    k1_pay1 (F := Ideal) s n h a b β (ix2 p o)
      = max (((∑ k : Fin 128, Ideal.div (n (ix2 p k)) (max (s (ix2 p (0 : Fin 1))) (Ideal.ofBits .f32 0x3F800000#32)) * a (ix2 k o))
          + ∑ k : Fin 128, h (ix2 p k) * b (ix2 k o)) + β (ix1 o)) (Ideal.ofBits .f32 0x00000000#32) := by
  unfold k1_pay1
  show max ((matmul (F := Ideal) dot_S5000x128_S128x128_S5000x128_1_0_0_1_n_n none
          (truncf .bf16 (divf (shapeCast S5000x128 n shapeCasts_S5000x128_S5000x128)
            (broadcastTo S5000x128 (maximumf (shapeCast S5000x1 s shapeCasts_S5000x1_S5000x1) (broadcast S5000x1 (Scalar.ofBits .f32 0x3F800000#32))) broadcasts_S5000x1_S5000x128)) bitsLt_bf16_f32)
          (truncf .bf16 (shapeCast S128x128 a shapeCasts_S128x128_S128x128) bitsLt_bf16_f32) (constant S5000x128 .f32 0x00000000#32) (ix2 p o)
        + matmul (F := Ideal) dot_S5000x128_S128x128_S5000x128_1_0_0_1_n_n none (truncf .bf16 h bitsLt_bf16_f32)
          (truncf .bf16 (shapeCast S128x128 b shapeCasts_S128x128_S128x128) bitsLt_bf16_f32) (constant S5000x128 .f32 0x00000000#32) (ix2 p o))
      + broadcastTo S5000x128 (shapeCast S1x128 β shapeCasts_S128_S1x128) broadcasts_S1x128_S5000x128 (ix2 p o)) (Ideal.ofBits .f32 0x00000000#32) = _
  rw [tile_matmul_apply, tile_matmul_apply, broadcastTo_1b_ab_apply, shapeCast_a_1a_apply]
  congr 1; congr 1; congr 1
  · refine Finset.sum_congr rfl fun k _ => ?_
    show Ideal.div (shapeCast S5000x128 n shapeCasts_S5000x128_S5000x128 (ix2 p k))
        (broadcastTo S5000x128 (maximumf (F := Ideal) (shapeCast S5000x1 s shapeCasts_S5000x1_S5000x1) (broadcast S5000x1 (Scalar.ofBits (F := Ideal) .f32 0x3F800000#32))) broadcasts_S5000x1_S5000x128 (ix2 p k))
        * shapeCast S128x128 a shapeCasts_S128x128_S128x128 (ix2 k o) = _
    rw [broadcastTo_a1_ab_apply, shapeCast_self, shapeCast_self, shapeCast_self]
    rfl
  · refine Finset.sum_congr rfl fun k _ => ?_
    show h (ix2 p k) * shapeCast S128x128 b shapeCasts_S128x128_S128x128 (ix2 k o) = _
    rw [shapeCast_self]

end Cert.KernelIdeal.Tile

end
-- ==== Proof.ProjRegion.lean ====
import proofs.«429332_j23278722744483_3_alg».proof.Proof.Gen.KernelIdeal.Frame
import proofs.«429332_j23278722744483_3_alg».proof.Proof.TileProduct
import Idealize.ShloMosaic.Lib.Pipeline.Value

set_option maxRecDepth 16384

noncomputable section

namespace Cert.KernelIdeal.Hidden

open Cert.KernelIdeal Cert.KernelIdeal.Gen Idealize.ShloMosaic Idealize.ShloMosaic.TcCoe Idealize.ShloMosaic.ValueIdx Idealize.SL.Sem
open Idealize.ShloMosaic.Pipeline (Dat)

/-! # The first pallas_call: the hidden features, tile by tile

Ten grid points; point t reads rows 5000·t … 5000·t + 4999 of the node features, the whole transposed weight matrix and
the whole bias, and writes the same rows of the result. So the result array, after the run, is ONE function of the three
arrays the call finds: entry (r, o) is max(∑ₖ x(r, k) · wᵀ(k, o) + b(o), 0). Stated for any contents `V` of the buffers at
the call's entry. -/

variable (V : (c : Dev nD) → (b : Ref sig .tc) → Buf (Elt Ideal) ((c : Thread nD τ).loc b))

/-- The node features, the transposed weight matrix and the bias as the call finds them. -/
abbrev feats (c : Dev nD) : Vec Ideal S50000x128 .f32 := V c main_arg0
abbrev wT (c : Dev nD) : Vec Ideal S128x128 .f32 := V c main_v0
abbrev bias (c : Dev nD) : Vec Ideal S128 .f32 := V c main_arg6

/-- Entry (r, o) of the result: the relu of row r against column o of the transposed weights, plus the bias. -/
def resAt (c : Dev nD) (r : Fin 50000) (o : Fin 128) : EReal :=
  max ((∑ k : Fin 128, feats V c (ix2 r k) * wT V c (ix2 k o)) + bias V c (ix1 o)) (Ideal.ofBits .f32 0x00000000#32)

/-- The result array. -/
def res (c : Dev nD) : Vec Ideal S50000x128 .f32 :=
  fun i => resAt V c ⟨(i 0).val, (i 0).isLt⟩ ⟨(i 1).val, (i 1).isLt⟩

theorem offs2 : (![0, 0] : Fin 2 → Nat) = fun _ => 0 := funext fun a => by fin_cases a <;> rfl
theorem offs1 : (![0] : Fin 1 → Nat) = fun _ => 0 := funext fun a => by fin_cases a <;> rfl

/-- The block index maps over the ten points: the row windows (features in, result out) move with the point, the weight
    and bias windows stay at block zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 ∧ t.val < 10 :=
  (by decide +kernel : ∀ t : Fin grid0.N, _)

/-- Row p of point t's feature block is row 5000·t + p of the features. -/
theorem feats_block (c : Dev nD) (t : Fin cfg0.N) (p : Fin 5000) (k : Fin 128) (r : Fin 50000) (hr : r.val = t.val * 5000 + p.val) :
    (iblk0 V c 0 t : Vec Ideal S5000x128 .f32) (ix2 p k) = feats V c (ix2 r k) := by
  obtain ⟨e0, e1, -⟩ := block_indices t
  unfold iblk0
  rw [View.read_apply]
  show V c main_arg0 _ = V c main_arg0 _
  congr 1
  funext a; apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Every point's weight block is the whole matrix. -/
theorem wT_block (c : Dev nD) (t : Fin cfg0.N) (k : Fin 128) (o : Fin 128) :
    (iblk0 V c 1 t : Vec Ideal S128x128 .f32) (ix2 k o) = wT V c (ix2 k o) := by
  obtain ⟨-, -, e2, e3, -⟩ := block_indices t
  unfold iblk0
  rw [View.read_apply]
  show V c main_v0 _ = V c main_v0 _
  congr 1
  funext a; apply Fin.ext
  match a with
  | ⟨0, _⟩ => show win0_1.index t (0 : Fin 2) * 128 + 1 * k.val = k.val; rw [e2]; omega
  | ⟨1, _⟩ => show win0_1.index t (1 : Fin 2) * 128 + 1 * o.val = o.val; rw [e3]; omega

/-- Every point's bias block is the whole bias. -/
theorem bias_block (c : Dev nD) (t : Fin cfg0.N) (o : Fin 128) :
    (iblk0 V c 2 t : Vec Ideal S128 .f32) (ix1 o) = bias V c (ix1 o) := by
  obtain ⟨-, -, -, -, e4, -⟩ := block_indices t
  unfold iblk0
  rw [View.read_apply]
  show V c main_arg6 _ = V c main_arg6 _
  congr 1
  funext a; apply Fin.ext
  match a with
  | ⟨0, _⟩ => show win0_2.index t (0 : Fin 1) * 128 + 1 * o.val = o.val; rw [e4]; omega

/-- What point t writes back is its block of `res`. -/
theorem flushed_eq (c : Dev nD) (t : Fin cfg0.N) :
    (dat0 V c).flushed 3 t = ((cfg0.win 3).blk t).view.read (Elt Ideal) (res V c) := by
  show (cfg0.win 3).cut (grid0.coords t) ((dat0 V c).after 3 t) = _
  rw [after0_3]
  unfold out0_3
  rw [View.canon_unit_zero offs2]
  simp only [View.ld_unit_zero (S := S5000x128) offs2, View.ld_unit_zero (S := S128x128) offs2, View.ld_unit_zero (S := S128) offs1]
  obtain ⟨-, -, -, -, -, e5, e6, hN⟩ := block_indices t
  funext j
  obtain ⟨p, o, rfl⟩ : ∃ (p : Fin 5000) (o : Fin 128), j = ix2 p o := ⟨j 0, j 1, eq_ix2 j⟩
  have hrow : t.val * 5000 + p.val < 50000 := by have := p.isLt; omega
  refine (Tile.proj_payload_apply (iblk0 V c 0 t) (iblk0 V c 1 t) (iblk0 V c 2 t) p o).trans ?_
  rw [View.read_apply]
  have hemb : res V c (((cfg0.win 3).blk t).view.emb (ix2 p o)) = resAt V c ⟨t.val * 5000 + p.val, hrow⟩ o := by
    unfold res
    refine congr (congrArg (resAt V c) (Fin.ext ?_)) (Fin.ext ?_)
    · show win0_3.index t (0 : Fin 2) * 5000 + 1 * p.val = t.val * 5000 + p.val; rw [e5]; omega
    · show win0_3.index t (1 : Fin 2) * 128 + 1 * o.val = o.val; rw [e6]; omega
  rw [hemb]
  unfold resAt
  refine congrArg₂ max (congrArg₂ (· + ·) (Finset.sum_congr rfl fun k _ => ?_) ?_) rfl
  · rw [feats_block V c t p k ⟨_, hrow⟩ rfl, wT_block V c t k o]
  · exact bias_block V c t o

/-- An index of the result is in point t's block iff each coordinate is in the block's range on its axis. -/
theorem mem_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- The ten row blocks cover the result: row r lies in the block of point r / 5000. -/
theorem covered (i : S50000x128.Idx) : ∃ t : Fin cfg0.N, (cfg0.win 3).flush t = true ∧ i ∈ ((cfg0.win 3).blk t).view.set := by
  have h0 : (i 0).val < 50000 := (i 0).isLt
  have h1 : (i 1).val < 128 := (i 1).isLt
  have hN : cfg0.N = 10 := N_0
  have ht : (i 0).val / 5000 < cfg0.N := by rw [hN]; omega
  obtain ⟨-, -, -, -, -, e5, e6, -⟩ := block_indices ⟨(i 0).val / 5000, ht⟩
  refine ⟨⟨(i 0).val / 5000, ht⟩, flush0_3 _, ?_⟩
  rw [mem_block]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e6]; omega

/-- The result array after the call. -/
theorem final (c : Dev nD) : (dat0 V c).arrAt 3 cfg0.N = res V c :=
  (dat0 V c).arrAt_eq_of_cover 3 (res V c) (fun t _ => flushed_eq V c t) covered

end Cert.KernelIdeal.Hidden

end
-- ==== Proof.CombineRegion.lean ====
import proofs.«429332_j23278722744483_3_alg».proof.Proof.Gen.KernelIdeal.Frame
import proofs.«429332_j23278722744483_3_alg».proof.Proof.TileProduct
import Idealize.ShloMosaic.Lib.Pipeline.Value

set_option maxRecDepth 16384

noncomputable section

namespace Cert.KernelIdeal.Combine

open Cert.KernelIdeal Cert.KernelIdeal.Gen Idealize.ShloMosaic Idealize.ShloMosaic.TcCoe Idealize.ShloMosaic.ValueIdx Idealize.SL.Sem
open Idealize.ShloMosaic.Pipeline (Dat)

/-! # The second pallas_call: the output, tile by tile

Ten grid points; point t reads rows 5000·t … 5000·t + 4999 of the aggregated messages, of the aggregated weights (a
column) and of the destination features, the two whole weight blocks and the whole bias, and writes the same rows of the
output. So the output array, after the run, is ONE function of the six arrays the call finds: entry (r, o) is
max((∑ₖ (n(r, k) / max(s(r), 1)) · a(k, o) + ∑ₖ h(r, k) · b(k, o)) + β(o), 0). Stated for any contents `V` of the buffers
at the call's entry. -/

variable (V : (c : Dev nD) → (b : Ref sig .tc) → Buf (Elt Ideal) ((c : Thread nD τ).loc b))

/-- The six arrays as the call finds them: aggregated messages, aggregated weights, destination features, the weight
    block applied to the normalised messages, the one applied to the destination features, the bias. -/
abbrev msgs (c : Dev nD) : Vec Ideal S50000x128 .f32 := V c main_v8
abbrev wsum (c : Dev nD) : Vec Ideal S50000x1 .f32 := V c main_v12
abbrev dst (c : Dev nD) : Vec Ideal S50000x128 .f32 := V c main_arg1
abbrev wa (c : Dev nD) : Vec Ideal S128x128 .f32 := V c main_v15
abbrev wb (c : Dev nD) : Vec Ideal S128x128 .f32 := V c main_v16
abbrev bias (c : Dev nD) : Vec Ideal S128 .f32 := V c main_arg8

/-- Entry (r, o) of the output. -/
def resAt (c : Dev nD) (r : Fin 50000) (o : Fin 128) : EReal :=
  max (((∑ k : Fin 128, Ideal.div (msgs V c (ix2 r k)) (max (wsum V c (ix2 r (0 : Fin 1))) (Ideal.ofBits .f32 0x3F800000#32)) * wa V c (ix2 k o))
      + ∑ k : Fin 128, dst V c (ix2 r k) * wb V c (ix2 k o)) + bias V c (ix1 o)) (Ideal.ofBits .f32 0x00000000#32)

/-- The output array. -/
def res (c : Dev nD) : Vec Ideal S50000x128 .f32 :=
  fun i => resAt V c ⟨(i 0).val, (i 0).isLt⟩ ⟨(i 1).val, (i 1).isLt⟩

theorem offs2 : (![0, 0] : Fin 2 → Nat) = fun _ => 0 := funext fun a => by fin_cases a <;> rfl
theorem offs1 : (![0] : Fin 1 → Nat) = fun _ => 0 := funext fun a => by fin_cases a <;> rfl

/-- The block index maps at a point: the four row windows move with the point, the others stay at block zero. -/
structure BlockIndices (t : Fin cfg1.N) : Prop where
  w0_0 : win1_0.index t (0 : Fin 2) = t.val
  w0_1 : win1_0.index t (1 : Fin 2) = 0
  w1_0 : win1_1.index t (0 : Fin 2) = t.val
  w1_1 : win1_1.index t (1 : Fin 2) = 0
  w2_0 : win1_2.index t (0 : Fin 2) = t.val
  w2_1 : win1_2.index t (1 : Fin 2) = 0
  w3_0 : win1_3.index t (0 : Fin 2) = 0
  w3_1 : win1_3.index t (1 : Fin 2) = 0
  w4_0 : win1_4.index t (0 : Fin 2) = 0
  w4_1 : win1_4.index t (1 : Fin 2) = 0
  w5_0 : win1_5.index t (0 : Fin 1) = 0
  w6_0 : win1_6.index t (0 : Fin 2) = t.val
  w6_1 : win1_6.index t (1 : Fin 2) = 0
  lt : t.val < 10

theorem block_indices_raw : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 ∧ t.val < 10 :=
  (by decide +kernel : ∀ t : Fin grid1.N, _)

theorem block_indices (t : Fin cfg1.N) : BlockIndices t := by
  obtain ⟨a, b, c, d, e, f, g, h, i, j, k, l, m, n⟩ := block_indices_raw t
  exact ⟨a, b, c, d, e, f, g, h, i, j, k, l, m, n⟩

/-- Row p of point t's message block is row 5000·t + p of the aggregated messages. -/
theorem msgs_block (c : Dev nD) (t : Fin cfg1.N) (p : Fin 5000) (k : Fin 128) (r : Fin 50000) (hr : r.val = t.val * 5000 + p.val) :
    (iblk1 V c 0 t : Vec Ideal S5000x128 .f32) (ix2 p k) = msgs V c (ix2 r k) := by
  have e := block_indices t
  unfold iblk1
  rw [View.read_apply]
  show V c main_v8 _ = V c main_v8 _
  congr 1
  funext a; apply Fin.ext
  match a with
  | ⟨0, _⟩ => show win1_0.index t (0 : Fin 2) * 5000 + 1 * p.val = r.val; rw [e.w0_0, hr]; omega
  | ⟨1, _⟩ => show win1_0.index t (1 : Fin 2) * 128 + 1 * k.val = k.val; rw [e.w0_1]; omega

/-- Row p of point t's destination block is row 5000·t + p of the destination features. -/
theorem dst_block (c : Dev nD) (t : Fin cfg1.N) (p : Fin 5000) (k : Fin 128) (r : Fin 50000) (hr : r.val = t.val * 5000 + p.val) :
    (iblk1 V c 2 t : Vec Ideal S5000x128 .f32) (ix2 p k) = dst V c (ix2 r k) := by
  have e := block_indices t
  unfold iblk1
  rw [View.read_apply]
  show V c main_arg1 _ = V c main_arg1 _
  congr 1
  funext a; apply Fin.ext
  match a with
  | ⟨0, _⟩ => show win1_2.index t (0 : Fin 2) * 5000 + 1 * p.val = r.val; rw [e.w2_0, hr]; omega
  | ⟨1, _⟩ => show win1_2.index t (1 : Fin 2) * 128 + 1 * k.val = k.val; rw [e.w2_1]; omega

/-- Row p of point t's weight-sum block is row 5000·t + p of the aggregated weights' column. -/
theorem wsum_block (c : Dev nD) (t : Fin cfg1.N) (p : Fin 5000) (r : Fin 50000) (hr : r.val = t.val * 5000 + p.val) :
    (iblk1 V c 1 t : Vec Ideal S5000x1 .f32) (ix2 p (0 : Fin 1)) = wsum V c (ix2 r (0 : Fin 1)) := by
  have e := block_indices t
  unfold iblk1
  rw [View.read_apply]
  show V c main_v12 _ = V c main_v12 _
  congr 1
  funext a; apply Fin.ext
  match a with
  | ⟨0, _⟩ => show win1_1.index t (0 : Fin 2) * 5000 + 1 * p.val = r.val; rw [e.w1_0, hr]; omega
  | ⟨1, _⟩ => show win1_1.index t (1 : Fin 2) * 1 + 1 * 0 = 0; rw [e.w1_1]

/-- Every point's first weight block is the whole matrix. -/
theorem wa_block (c : Dev nD) (t : Fin cfg1.N) (k : Fin 128) (o : Fin 128) :
    (iblk1 V c 3 t : Vec Ideal S128x128 .f32) (ix2 k o) = wa V c (ix2 k o) := by
  have e := block_indices t
  unfold iblk1
  rw [View.read_apply]
  show V c main_v15 _ = V c main_v15 _
  congr 1
  funext a; apply Fin.ext
  match a with
  | ⟨0, _⟩ => show win1_3.index t (0 : Fin 2) * 128 + 1 * k.val = k.val; rw [e.w3_0]; omega
  | ⟨1, _⟩ => show win1_3.index t (1 : Fin 2) * 128 + 1 * o.val = o.val; rw [e.w3_1]; omega

/-- Every point's second weight block is the whole matrix. -/
theorem wb_block (c : Dev nD) (t : Fin cfg1.N) (k : Fin 128) (o : Fin 128) :
    (iblk1 V c 4 t : Vec Ideal S128x128 .f32) (ix2 k o) = wb V c (ix2 k o) := by
  have e := block_indices t
  unfold iblk1
  rw [View.read_apply]
  show V c main_v16 _ = V c main_v16 _
  congr 1
  funext a; apply Fin.ext
  match a with
  | ⟨0, _⟩ => show win1_4.index t (0 : Fin 2) * 128 + 1 * k.val = k.val; rw [e.w4_0]; omega
  | ⟨1, _⟩ => show win1_4.index t (1 : Fin 2) * 128 + 1 * o.val = o.val; rw [e.w4_1]; omega

/-- Every point's bias block is the whole bias. -/
theorem bias_block (c : Dev nD) (t : Fin cfg1.N) (o : Fin 128) :
    (iblk1 V c 5 t : Vec Ideal S128 .f32) (ix1 o) = bias V c (ix1 o) := by
  have e := block_indices t
  unfold iblk1
  rw [View.read_apply]
  show V c main_arg8 _ = V c main_arg8 _
  congr 1
  funext a; apply Fin.ext
  match a with
  | ⟨0, _⟩ => show win1_5.index t (0 : Fin 1) * 128 + 1 * o.val = o.val; rw [e.w5_0]; omega

/-- What point t writes back is its block of `res`. -/
theorem flushed_eq (c : Dev nD) (t : Fin cfg1.N) :
    (dat1 V c).flushed 6 t = ((cfg1.win 6).blk t).view.read (Elt Ideal) (res V c) := by
  show (cfg1.win 6).cut (grid1.coords t) ((dat1 V c).after 6 t) = _
  rw [after1_6]
  unfold out1_6
  rw [View.canon_unit_zero offs2]
  simp only [View.ld_unit_zero (S := S5000x128) offs2, View.ld_unit_zero (S := S5000x1) offs2, View.ld_unit_zero (S := S128x128) offs2, View.ld_unit_zero (S := S128) offs1]
  have e := block_indices t
  have hN := e.lt
  funext j
  obtain ⟨p, o, rfl⟩ : ∃ (p : Fin 5000) (o : Fin 128), j = ix2 p o := ⟨j 0, j 1, eq_ix2 j⟩
  have hrow : t.val * 5000 + p.val < 50000 := by have := p.isLt; omega
  refine (Tile.combine_payload_apply (iblk1 V c 1 t) (iblk1 V c 0 t) (iblk1 V c 2 t) (iblk1 V c 3 t) (iblk1 V c 4 t) (iblk1 V c 5 t) p o).trans ?_
  rw [View.read_apply]
  have hemb : res V c (((cfg1.win 6).blk t).view.emb (ix2 p o)) = resAt V c ⟨t.val * 5000 + p.val, hrow⟩ o := by
    unfold res
    refine congr (congrArg (resAt V c) (Fin.ext ?_)) (Fin.ext ?_)
    · show win1_6.index t (0 : Fin 2) * 5000 + 1 * p.val = t.val * 5000 + p.val; rw [e.w6_0]; omega
    · show win1_6.index t (1 : Fin 2) * 128 + 1 * o.val = o.val; rw [e.w6_1]; omega
  rw [hemb]
  unfold resAt
  refine congrArg₂ max (congrArg₂ (· + ·) (congrArg₂ (· + ·) (Finset.sum_congr rfl fun k _ => ?_) (Finset.sum_congr rfl fun k _ => ?_)) ?_) rfl
  · rw [msgs_block V c t p k ⟨_, hrow⟩ rfl, wsum_block V c t p ⟨_, hrow⟩ rfl, wa_block V c t k o]
  · rw [dst_block V c t p k ⟨_, hrow⟩ rfl, wb_block V c t k o]
  · exact bias_block V c t o

/-- An index of the output is in point t's block iff each coordinate is in the block's range on its axis. -/
theorem mem_block (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v17).slice (win1_6.rect t)).set ↔ _
  rw [View.set_slice_whole, Rect.mem_set_unit]
  exact Iff.rfl

/-- The ten row blocks cover the output: row r lies in the block of point r / 5000. -/
theorem covered (i : S50000x128.Idx) : ∃ t : Fin cfg1.N, (cfg1.win 6).flush t = true ∧ i ∈ ((cfg1.win 6).blk t).view.set := by
  have h0 : (i 0).val < 50000 := (i 0).isLt
  have h1 : (i 1).val < 128 := (i 1).isLt
  have hN : cfg1.N = 10 := N_1
  have ht : (i 0).val / 5000 < cfg1.N := by rw [hN]; omega
  have e := block_indices ⟨(i 0).val / 5000, ht⟩
  refine ⟨⟨(i 0).val / 5000, ht⟩, flush1_6 _, ?_⟩
  rw [mem_block]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e.w6_0]; show (i 0).val / 5000 * 5000 ≤ (i 0).val ∧ (i 0).val < (i 0).val / 5000 * 5000 + 5000; omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    rw [e.w6_1]; omega

/-- The output array after the call. -/
theorem final (c : Dev nD) : (dat1 V c).arrAt 6 cfg1.N = res V c :=
  (dat1 V c).arrAt_eq_of_cover 6 (res V c) (fun t _ => flushed_eq V c t) covered

end Cert.KernelIdeal.Combine

end
-- ==== Proof.IndexWrap.lean ====
import Idealize.ShloMosaic.Lib.Affine
import Idealize.ShloMosaic.Lib.StableHlo.Predicate

namespace Cert.SageSpec

/-! # The index wrap-around on 32-bit words

Both programs replace a negative row index x by x + 50000 before the row gather (numpy's convention). For x in
[-50000, 50000) the wrapped index lies in [0, 49999], so the bound test that guards the gather passes at every edge. -/

open Idealize.ShloMosaic

/-- The signed reading of the sum of a word in [-50000, 0) and 50000 is the sum of the readings: no wrap-around. -/
theorem toInt_add_50000 (x : BitVec 32) (h1 : -50000 ≤ x.toInt) (h2 : x.toInt < 0) :
    (x + 50000#32).toInt = x.toInt + 50000 := by
  have e : (50000#32 : BitVec 32).toInt = 50000 := by decide
  rw [BitVec.toInt_add, e]
  unfold Int.bmod
  simp only [Nat.cast_ofNat, Nat.cast_pow]
  omega

/-- numpy's index wrap-around keeps an index of [-50000, 50000) inside [0, 49999]: a negative index counts from the end. -/
theorem wrapped_in_bounds (x : BitVec 32)
    (hlo : IntOp.cmpi .sge x 4294917296#32 = 1#1) (hhi : IntOp.cmpi .slt x 50000#32 = 1#1) :
    IntOp.andi (IntOp.cmpi .sge (Scalar.select (IntOp.cmpi .slt x 0#32) (IntOp.addi x 50000#32) x) 0#32)
      (IntOp.cmpi .sle (Scalar.select (IntOp.cmpi .slt x 0#32) (IntOp.addi x 50000#32) x) 49999#32) = 1#1 := by
  have eN : (4294917296#32 : BitVec 32).toInt = -50000 := by decide
  have eP : (50000#32 : BitVec 32).toInt = 50000 := by decide
  have eZ : (0#32 : BitVec 32).toInt = 0 := by decide
  have eM : (49999#32 : BitVec 32).toInt = 49999 := by decide
  simp only [IntOp.cmpi, StableHlo.Predicate.ofBool_eq_one_iff, BitVec.sle, BitVec.slt, decide_eq_true_eq, eN, eP] at hlo hhi
  rw [IntOp.andi_eq_one]
  by_cases hneg : x.toInt < 0
  · have hc : IntOp.cmpi .slt x 0#32 = 1#1 := by
      simp only [IntOp.cmpi, StableHlo.Predicate.ofBool_eq_one_iff, BitVec.slt, decide_eq_true_eq, eZ]; exact hneg
    rw [hc]
    have hs : Scalar.select 1#1 (IntOp.addi x 50000#32) x = x + 50000#32 := if_pos rfl
    rw [hs]
    have ha := toInt_add_50000 x hlo hneg
    simp only [IntOp.cmpi, StableHlo.Predicate.ofBool_eq_one_iff, BitVec.sle, decide_eq_true_eq, eZ, eM, ha]
    omega
  · have hc : IntOp.cmpi .slt x 0#32 = 0#1 := by
      have : ¬ IntOp.cmpi .slt x 0#32 = 1#1 := by
        simp only [IntOp.cmpi, StableHlo.Predicate.ofBool_eq_one_iff, BitVec.slt, decide_eq_true_eq, eZ]; exact hneg
      revert this; generalize IntOp.cmpi .slt x 0#32 = b; revert b; decide
    rw [hc]
    have hs : Scalar.select 0#1 (IntOp.addi x 50000#32) x = x := if_neg (by decide)
    rw [hs]
    simp only [IntOp.cmpi, StableHlo.Predicate.ofBool_eq_one_iff, BitVec.sle, decide_eq_true_eq, eZ, eM]
    omega

end Cert.SageSpec
-- ==== Proof.Between.lean ====
import proofs.«429332_j23278722744483_3_alg».proof.Proof.Gen.KernelIdeal.Frame
import proofs.«429332_j23278722744483_3_alg».proof.Proof.IndexWrap
import Idealize.ShloMosaic.Lib.StableHlo.Run
import Idealize.ShloMosaic.PureOps.Ideal
import Idealize.ShloMosaic.PureOps.Reduce
import Idealize.ShloMosaic.Lib.Pipeline.Value
import Idealize.ShloMosaic.Lib.ValueIdx
import Idealize.ShloMosaic.Lib.Pipeline.Frame

set_option maxRecDepth 16384

noncomputable section

namespace Cert.KernelIdeal.Between

open Cert.KernelIdeal Cert.KernelIdeal.Gen Idealize.ShloMosaic Idealize.ShloMosaic.TcCoe Idealize.ShloMosaic.StableHlo

/-! # Between the two pallas_calls: the edge aggregation on the host

Thirty-nine host operations: jnp.take of the hidden features at the source indices (a wrap-around of negative indices,
a bound test, the row gather, the fill where the test fails), the product with the edge weights, the two scatter-adds by
destination node, and the slicing and transposing of the second weight matrix. Named here as functions of the arrays
they read; then each buffer the second call reads, after the two stretches, as such a function of the contents before
them. -/

/-- numpy's wrap-around of the source indices (a negative index counts from the end), as a column. -/
def wrapped (e : IVec S800000 32) : IVec S800000x1 32 :=
  broadcastInDim S800000x1 ![0] bcast_S800000_S800000x1_0
    (select (cmpi .slt e (broadcastInDim S800000 ![] bcast_S_S800000 (constantI S_ 32 0#32)))
      (addi e (broadcastInDim S800000 ![] bcast_S_S800000 (constantI S_ 32 50000#32))) e)

/-- Per edge: is the index in column j inside [0, 49999]? (jnp.take's fill mode tests it.) -/
def inBoundsOf (j : IVec S800000x1 32) : IVec S800000 1 :=
  Host.reduce IntOp.andi
    (andi (cmpi .sge j (broadcastInDim S800000x1 ![] bcast_S_S800000x1 (constantI S_ 32 0#32)))
      (cmpi .sle j (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The rows of x at the wrapped source indices: one row per edge. -/
def gathered (x : FVec Ideal S50000x128 .f32) (e : IVec S800000 32) : FVec Ideal S800000x128 .f32 :=
  Host.gather gather_S50000x128_S800000x1_S800000x128_1_0_n_n_0_1_1128 x (wrapped e)

/-- jnp.take in fill mode at an index column j: the gathered row where the index is in bounds, the fill value elsewhere. -/
def takenAt (x : FVec Ideal S50000x128 .f32) (j : IVec S800000x1 32) : FVec Ideal S800000x128 .f32 :=
  select (broadcastInDim S800000x128 ![0] bcast_S800000_S800000x128_0 (inBoundsOf j)) (Host.gather gather_S50000x128_S800000x1_S800000x128_1_0_n_n_0_1_1128 x j)
    (broadcastInDim S800000x128 ![] bcast_S_S800000x128 (constant (F := Ideal) S_ .f32 0x7FC00000#32))

/-- jnp.take in fill mode at the wrapped source indices. -/
def taken (x : FVec Ideal S50000x128 .f32) (e : IVec S800000 32) : FVec Ideal S800000x128 .f32 :=
  takenAt x (wrapped e)

/-- The weighted messages g · w, added up per destination node. -/
def aggregated (g : FVec Ideal S800000x128 .f32) (w : FVec Ideal S800000 .f32) (d : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (mulf g (broadcastInDim S800000x128 ![0, 1] bcast_S800000x1_S800000x128_0_1 (broadcastInDim S800000x1 ![0] bcast_S800000_S800000x1_0 w)))

/-- The edge weights added up per destination node. -/
def weightSums (w : FVec Ideal S800000 .f32) (d : IVec S800000 32) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 d) w

/-- The weight block (128 columns of W from column `off`), transposed: what the second call multiplies by. -/
def blockT0 (W : FVec Ideal S128x256 .f32) : FVec Ideal S128x128 .f32 :=
  transpose S128x128 [1, 0] (extractStridedSlice S128x128 ![0, 0] W slices_S128x256_S128x128_0_0) transposes_S128x128_S128x128_1_0
def blockT1 (W : FVec Ideal S128x256 .f32) : FVec Ideal S128x128 .f32 :=
  transpose S128x128 [1, 0] (extractStridedSlice S128x128 ![0, 128] W slices_S128x256_S128x128_0_128) transposes_S128x128_S128x128_1_0

/-! ## The bound test passes on every edge when the source indices are in [-50000, 50000) -/

/-- A left fold by `and` from 1 over words that are all 1 is 1. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_ones x hx l

/-- The wrapped index at an edge, read through the column broadcast. -/
theorem wrapped_apply (e : IVec S800000 32) (j : S800000x1.Idx) :
    wrapped e j = Scalar.select (IntOp.cmpi .slt (e (ValueIdx.ix1 (⟨(j 0).val, (j 0).isLt⟩ : Fin 800000))) 0#32)
      (IntOp.addi (e (ValueIdx.ix1 (⟨(j 0).val, (j 0).isLt⟩ : Fin 800000))) 50000#32) (e (ValueIdx.ix1 (⟨(j 0).val, (j 0).isLt⟩ : Fin 800000))) := by
  unfold wrapped
  refine (broadcastInDim_apply _ bcast_S800000_S800000x1_0 _ j (ValueIdx.ix1 (⟨(j 0).val, (j 0).isLt⟩ : Fin 800000)) (fun a => match a with
    | ⟨0, _⟩ => by show (j 0).val = if (800000 : Nat) = 1 then 0 else (j 0).val; rw [if_neg (by decide)])).trans ?_
  rfl

/-- With every source index in [-50000, 50000), every edge passes jnp.take's bound test. -/
theorem inBounds_ones (e : IVec S800000 32)
    (he : ∀ i : S800000.Idx, IntOp.cmpi .sge (e i) 4294917296#32 = 1#1 ∧ IntOp.cmpi .slt (e i) 50000#32 = 1#1) :
    inBoundsOf (wrapped e) = fun _ => 1#1 := by
  funext i
  unfold inBoundsOf
  rw [Host.reduce_eq_foldl]
  refine foldl_andi_ones _ (fun j => ?_) _
  show IntOp.andi (IntOp.cmpi .sge (wrapped e j) 0#32) (IntOp.cmpi .sle (wrapped e j) 49999#32) = 1#1
  rw [wrapped_apply]
  exact Cert.SageSpec.wrapped_in_bounds _ (he _).1 (he _).2

/-- Then jnp.take's fill never shows: the taken rows are the gathered rows. -/
theorem taken_eq_gathered (x : FVec Ideal S50000x128 .f32) (e : IVec S800000 32)
    (he : ∀ i : S800000.Idx, IntOp.cmpi .sge (e i) 4294917296#32 = 1#1 ∧ IntOp.cmpi .slt (e i) 50000#32 = 1#1) :
    taken x e = gathered x e := by
  unfold taken takenAt gathered
  rw [inBounds_ones e he]
  funext j
  exact ValueIdx.select_one _ _

/-! ## The buffers after the first stretch (jnp.take), from contents `U` -/

section Stretches
variable (U : Valuation τ sig (Elt Ideal))

/-- The host stretch read back one operation at a time, without closing attempts between the steps. -/
macro "after_steps" : tactic =>
  `(tactic| (simp only [after_cons, after_nil]
             repeat (first
               | rewrite [nullary_result] | rewrite [unary_result] | rewrite [binary_result] | rewrite [ternary_result]
               | (rewrite [nullary_result_ne]; rotate_left; decide)
               | (rewrite [unary_result_ne]; rotate_left; decide)
               | (rewrite [binary_result_ne]; rotate_left; decide)
               | (rewrite [ternary_result_ne]; rotate_left; decide))))

/-- jnp.take in three parts: eight operations make the wrapped index column, ten test its bounds, five gather and fill. -/
theorem take_split : (hostOps1 : List (HloOp τ sig (Elt Ideal)))
    = hostOps1.take 8 ++ ((hostOps1.drop 8).take 10 ++ (hostOps1.drop 8).drop 10) := by
  rw [List.take_append_drop, List.take_append_drop]

set_option maxHeartbeats 4000000 in
theorem wrapped_of :
    StableHlo.after (hostOps1.take 8) U (Proc.devRef .tc main_call0_v5) = wrapped (U (Proc.devRef .tc main_arg3)) := by
  simp only [hostOps1, List.take]
  after_results
  rfl

set_option maxHeartbeats 4000000 in
theorem head_keeps_v1 :
    StableHlo.after (hostOps1.take 8) U (Proc.devRef .tc main_v1) = U (Proc.devRef .tc main_v1) := by
  simp only [hostOps1, List.take]
  after_results

set_option maxHeartbeats 4000000 in
theorem boundTest_of (Y : Valuation τ sig (Elt Ideal)) :
    StableHlo.after ((hostOps1.drop 8).take 10) Y (Proc.devRef .tc main_call0_v12) = inBoundsOf (Y (Proc.devRef .tc main_call0_v5)) := by
  simp only [hostOps1, List.drop, List.take]
  after_steps
  dsimp only [TRef.toBuf, TRef.ofBuf, TRef.of]
  simp only [cast_eq]
  rfl

set_option maxHeartbeats 4000000 in
theorem boundTest_keeps_v1 (Y : Valuation τ sig (Elt Ideal)) :
    StableHlo.after ((hostOps1.drop 8).take 10) Y (Proc.devRef .tc main_v1) = Y (Proc.devRef .tc main_v1) := by
  simp only [hostOps1, List.drop, List.take]
  after_results

set_option maxHeartbeats 4000000 in
theorem boundTest_keeps_v5 (Y : Valuation τ sig (Elt Ideal)) :
    StableHlo.after ((hostOps1.drop 8).take 10) Y (Proc.devRef .tc main_call0_v5) = Y (Proc.devRef .tc main_call0_v5) := by
  simp only [hostOps1, List.drop, List.take]
  after_results

set_option maxHeartbeats 4000000 in
theorem fill_of (Z : Valuation τ sig (Elt Ideal)) :
    StableHlo.after ((hostOps1.drop 8).drop 10) Z (Proc.devRef .tc main_v2)
      = select (broadcastInDim S800000x128 ![0] bcast_S800000_S800000x128_0 (Z (Proc.devRef .tc main_call0_v12)))
          (Host.gather gather_S50000x128_S800000x1_S800000x128_1_0_n_n_0_1_1128 (Z (Proc.devRef .tc main_v1)) (Z (Proc.devRef .tc main_call0_v5))) (broadcastInDim S800000x128 ![] bcast_S_S800000x128 (constant (F := Ideal) S_ .f32 0x7FC00000#32)) := by
  simp only [hostOps1, List.drop]
  after_results
  rfl

theorem taken_of :
    StableHlo.after hostOps1 U (Proc.devRef .tc main_v2)
      = taken (U (Proc.devRef .tc main_v1)) (U (Proc.devRef .tc main_arg3)) := by
  rw [take_split, StableHlo.after_append, StableHlo.after_append, fill_of, boundTest_of, boundTest_keeps_v1, boundTest_keeps_v5,
    wrapped_of, head_keeps_v1]
  rfl

set_option maxHeartbeats 4000000 in
theorem kept1_arg1 : StableHlo.after hostOps1 U (Proc.devRef .tc main_arg1) = U (Proc.devRef .tc main_arg1) := by
  after_results
set_option maxHeartbeats 4000000 in
theorem kept1_arg2 : StableHlo.after hostOps1 U (Proc.devRef .tc main_arg2) = U (Proc.devRef .tc main_arg2) := by
  after_results
set_option maxHeartbeats 4000000 in
theorem kept1_arg4 : StableHlo.after hostOps1 U (Proc.devRef .tc main_arg4) = U (Proc.devRef .tc main_arg4) := by
  after_results
set_option maxHeartbeats 4000000 in
theorem kept1_arg7 : StableHlo.after hostOps1 U (Proc.devRef .tc main_arg7) = U (Proc.devRef .tc main_arg7) := by
  after_results
set_option maxHeartbeats 4000000 in
theorem kept1_arg8 : StableHlo.after hostOps1 U (Proc.devRef .tc main_arg8) = U (Proc.devRef .tc main_arg8) := by
  after_results

/-! ## The buffers after the second stretch, from contents `X` -/

variable (X : Valuation τ sig (Elt Ideal))

set_option maxHeartbeats 4000000 in
theorem msgs_of :
    StableHlo.after hostOps1_1 X (Proc.devRef .tc main_v8)
      = aggregated (X (Proc.devRef .tc main_v2)) (X (Proc.devRef .tc main_arg2)) (X (Proc.devRef .tc main_arg4)) := by
  after_results
  rfl

set_option maxHeartbeats 4000000 in
theorem wsum_of :
    StableHlo.after hostOps1_1 X (Proc.devRef .tc main_v12)
      = broadcastInDim S50000x1 ![0] bcast_S50000_S50000x1_0 (weightSums (X (Proc.devRef .tc main_arg2)) (X (Proc.devRef .tc main_arg4))) := by
  after_results
  rfl

set_option maxHeartbeats 4000000 in
theorem wa_of : StableHlo.after hostOps1_1 X (Proc.devRef .tc main_v15) = blockT0 (X (Proc.devRef .tc main_arg7)) := by
  after_results
  rfl

set_option maxHeartbeats 4000000 in
theorem wb_of : StableHlo.after hostOps1_1 X (Proc.devRef .tc main_v16) = blockT1 (X (Proc.devRef .tc main_arg7)) := by
  after_results
  rfl

set_option maxHeartbeats 4000000 in
theorem kept2_arg1 : StableHlo.after hostOps1_1 X (Proc.devRef .tc main_arg1) = X (Proc.devRef .tc main_arg1) := by
  after_results
set_option maxHeartbeats 4000000 in
theorem kept2_arg8 : StableHlo.after hostOps1_1 X (Proc.devRef .tc main_arg8) = X (Proc.devRef .tc main_arg8) := by
  after_results

end Stretches

end Cert.KernelIdeal.Between

end
-- ==== Proof.Spec.lean ====
import Idealize.ShloMosaic.PureOps.Ideal
import Idealize.ShloMosaic.Lib.ValueIdx
import Mathlib.Algebra.BigOperators.Fin

noncomputable section

namespace Cert.SageSpec

open Idealize.ShloMosaic Idealize.ShloMosaic.ValueIdx

/-! # The weighted SAGE layer as two whole-array functions over the extended reals

Nodes are the 50000 rows, features the 128 columns. Between the two functions stands the edge aggregation (a row gather
by source node, a weighted scatter-add by destination node), which both programs carry out by the same host operations:
it is carried as an opaque argument here. -/

/-- Hidden features of node r, feature o: relu(∑ₖ x(r, k) · Q(o, k) + qb(o)) — the projection by Qᵀ, the bias, the relu. -/
def hiddenAt (x : (⟨2, ![50000, 128]⟩ : Shape).Idx → EReal) (Q : (⟨2, ![128, 128]⟩ : Shape).Idx → EReal)
    (qb : (⟨1, ![128]⟩ : Shape).Idx → EReal) (r : Fin 50000) (o : Fin 128) : EReal :=
  max ((∑ k : Fin 128, x (ix2 r k) * Q (ix2 o k)) + qb (ix1 o)) (Ideal.ofBits .f32 0x00000000#32)

/-- The hidden features as an array. -/
def hidden (x : (⟨2, ![50000, 128]⟩ : Shape).Idx → EReal) (Q : (⟨2, ![128, 128]⟩ : Shape).Idx → EReal)
    (qb : (⟨1, ![128]⟩ : Shape).Idx → EReal) : (⟨2, ![50000, 128]⟩ : Shape).Idx → EReal :=
  fun i => hiddenAt x Q qb ⟨(i 0).val, (i 0).isLt⟩ ⟨(i 1).val, (i 1).isLt⟩

/-- Output of node r, feature o, from the aggregated messages n, the aggregated weights ws, the destination features h
    and the weight matrix W = [Wa | Wb] (128 × 256): relu(∑ₖ (n(r, k) / max(ws(r), 1)) · W(o, k) + ∑ₖ h(r, k) · W(o, 128 + k) + wb(o)). -/
def outAt (n : (⟨2, ![50000, 128]⟩ : Shape).Idx → EReal) (ws : (⟨1, ![50000]⟩ : Shape).Idx → EReal)
    (h : (⟨2, ![50000, 128]⟩ : Shape).Idx → EReal) (W : (⟨2, ![128, 256]⟩ : Shape).Idx → EReal)
    (wb : (⟨1, ![128]⟩ : Shape).Idx → EReal) (r : Fin 50000) (o : Fin 128) : EReal :=
  max (((∑ k : Fin 128, Ideal.div (n (ix2 r k)) (max (ws (ix1 r)) (Ideal.ofBits .f32 0x3F800000#32)) * W (ix2 o ⟨k.val, by omega⟩))
        + ∑ k : Fin 128, h (ix2 r k) * W (ix2 o ⟨128 + k.val, by omega⟩)) + wb (ix1 o))
    (Ideal.ofBits .f32 0x00000000#32)

/-- The output as an array. -/
def out (n : (⟨2, ![50000, 128]⟩ : Shape).Idx → EReal) (ws : (⟨1, ![50000]⟩ : Shape).Idx → EReal)
    (h : (⟨2, ![50000, 128]⟩ : Shape).Idx → EReal) (W : (⟨2, ![128, 256]⟩ : Shape).Idx → EReal)
    (wb : (⟨1, ![128]⟩ : Shape).Idx → EReal) : (⟨2, ![50000, 128]⟩ : Shape).Idx → EReal :=
  fun i => outAt n ws h W wb ⟨(i 0).val, (i 0).isLt⟩ ⟨(i 1).val, (i 1).isLt⟩

/-- A sum over 256 terms is the sum of its first 128 and of its last 128: the concatenated operand's contraction splits
    into the two products the kernel forms. Sums of extended reals are a commutative monoid's: no finiteness is needed. -/
theorem sum_split_halves (f : Fin 256 → EReal) :
    ∑ k : Fin 256, f k = (∑ k : Fin 128, f ⟨k.val, by omega⟩) + ∑ k : Fin 128, f ⟨128 + k.val, by omega⟩ :=
  Fin.sum_univ_add (M := EReal) (a := 128) (b := 128) f

end Cert.SageSpec

end
-- ==== Proof.KernelValue.lean ====
import proofs.«429332_j23278722744483_3_alg».proof.Proof.KernelRun
import proofs.«429332_j23278722744483_3_alg».proof.Proof.ProjRegion
import proofs.«429332_j23278722744483_3_alg».proof.Proof.CombineRegion
import proofs.«429332_j23278722744483_3_alg».proof.Proof.Between
import proofs.«429332_j23278722744483_3_alg».proof.Proof.Spec
import Idealize.ShloMosaic.Lib.ValueLayout

set_option maxRecDepth 16384

noncomputable section

namespace Cert.KernelIdeal.Layer

open Cert.KernelIdeal Cert.KernelIdeal.Gen Idealize.ShloMosaic Idealize.ShloMosaic.TcCoe Idealize.ShloMosaic.ValueIdx Idealize.ShloMosaic.StableHlo
open Cert.SageSpec Cert.KernelIdeal.Between

/-! # The kernel program's result, read back through the run

The run leaves the result buffer at the second call's output array (`Combine.res`) of the buffers that call finds; those
are the host stretch's functions of the first call's output array (`Hidden.res`) and of the arguments. Composed: the
result is `out` of the aggregated messages of the hidden features, of the aggregated weights, and of the arguments. -/

variable (m : (ℓ : Loc nD τ sig) → Buf (Elt Ideal) ℓ) (ρ : Dev nD → PrngReg)

/-- The argument arrays as launched. -/
abbrev x0 (c : Dev nD) : FVec Ideal S50000x128 .f32 := m ((c.tc : Thread nD τ).loc main_arg0)
abbrev x1 (c : Dev nD) : FVec Ideal S50000x128 .f32 := m ((c.tc : Thread nD τ).loc main_arg1)
abbrev x2 (c : Dev nD) : FVec Ideal S800000 .f32 := m ((c.tc : Thread nD τ).loc main_arg2)
abbrev x3 (c : Dev nD) : IVec S800000 32 := m ((c.tc : Thread nD τ).loc main_arg3)
abbrev x4 (c : Dev nD) : IVec S800000 32 := m ((c.tc : Thread nD τ).loc main_arg4)
abbrev x5 (c : Dev nD) : FVec Ideal S128x128 .f32 := m ((c.tc : Thread nD τ).loc main_arg5)
abbrev x6 (c : Dev nD) : FVec Ideal S128 .f32 := m ((c.tc : Thread nD τ).loc main_arg6)
abbrev x7 (c : Dev nD) : FVec Ideal S128x256 .f32 := m ((c.tc : Thread nD τ).loc main_arg7)
abbrev x8 (c : Dev nD) : FVec Ideal S128 .f32 := m ((c.tc : Thread nD τ).loc main_arg8)

/-! ## The first call's entry: one transpose after the launch -/

theorem entry0_arg0 (c : Dev nD) : W1 m ρ c (Proc.devRef .tc main_arg0) = x0 m c := by
  show StableHlo.after hostOps0 (W0 m ρ c) (Proc.devRef .tc main_arg0) = _
  after_results <;> rfl
theorem entry0_arg6 (c : Dev nD) : W1 m ρ c (Proc.devRef .tc main_arg6) = x6 m c := by
  show StableHlo.after hostOps0 (W0 m ρ c) (Proc.devRef .tc main_arg6) = _
  after_results <;> rfl
theorem entry0_wT (c : Dev nD) :
    W1 m ρ c (Proc.devRef .tc main_v0) = transpose S128x128 [1, 0] (x5 m c) transposes_S128x128_S128x128_1_0 := by
  show StableHlo.after hostOps0 (W0 m ρ c) (Proc.devRef .tc main_v0) = _
  after_results <;> rfl

/-- The same three facts over the first call's arrays at their literal types. -/
theorem feats_entry (c : Dev nD) : Hidden.feats (V1 m ρ) c = x0 m c := entry0_arg0 m ρ c
theorem wT_entry (c : Dev nD) :
    Hidden.wT (V1 m ρ) c = transpose S128x128 [1, 0] (x5 m c) transposes_S128x128_S128x128_1_0 := entry0_wT m ρ c
theorem bias0_entry (c : Dev nD) : Hidden.bias (V1 m ρ) c = x6 m c := entry0_arg6 m ρ c

/-- The first call's output: the hidden features of the arguments. -/
theorem hidden_res (c : Dev nD) : Hidden.res (V1 m ρ) c = Cert.SageSpec.hidden (x0 m c) (x5 m c) (x6 m c) := by
  funext i
  unfold Hidden.res Hidden.resAt Cert.SageSpec.hidden Cert.SageSpec.hiddenAt
  refine congrArg₂ max (congrArg₂ (· + ·) (Finset.sum_congr rfl fun k _ => ?_) ?_) rfl
  · rw [feats_entry, wT_entry, transpose_ix2_apply]
  · rw [bias0_entry]

/-! ## The first call's exit -/

theorem exit0_hidden (c : Dev nD) : W2 m ρ c (Proc.devRef .tc main_v1) = Cert.SageSpec.hidden (x0 m c) (x5 m c) (x6 m c) :=
  ((W2_arr m ρ c 3).trans (Hidden.final (V1 m ρ) c)).trans (hidden_res m ρ c)

theorem exit0_arg1 (c : Dev nD) : W2 m ρ c (Proc.devRef .tc main_arg1) = x1 m c := by
  refine (W2_of_ne m ρ c main_arg1 (by decide)).trans ?_
  show StableHlo.after hostOps0 (W0 m ρ c) (Proc.devRef .tc main_arg1) = _
  after_results <;> rfl
theorem exit0_arg2 (c : Dev nD) : W2 m ρ c (Proc.devRef .tc main_arg2) = x2 m c := by
  refine (W2_of_ne m ρ c main_arg2 (by decide)).trans ?_
  show StableHlo.after hostOps0 (W0 m ρ c) (Proc.devRef .tc main_arg2) = _
  after_results <;> rfl
theorem exit0_arg3 (c : Dev nD) : W2 m ρ c (Proc.devRef .tc main_arg3) = x3 m c := by
  refine (W2_of_ne m ρ c main_arg3 (by decide)).trans ?_
  show StableHlo.after hostOps0 (W0 m ρ c) (Proc.devRef .tc main_arg3) = _
  after_results <;> rfl
theorem exit0_arg4 (c : Dev nD) : W2 m ρ c (Proc.devRef .tc main_arg4) = x4 m c := by
  refine (W2_of_ne m ρ c main_arg4 (by decide)).trans ?_
  show StableHlo.after hostOps0 (W0 m ρ c) (Proc.devRef .tc main_arg4) = _
  after_results <;> rfl
theorem exit0_arg7 (c : Dev nD) : W2 m ρ c (Proc.devRef .tc main_arg7) = x7 m c := by
  refine (W2_of_ne m ρ c main_arg7 (by decide)).trans ?_
  show StableHlo.after hostOps0 (W0 m ρ c) (Proc.devRef .tc main_arg7) = _
  after_results <;> rfl
theorem exit0_arg8 (c : Dev nD) : W2 m ρ c (Proc.devRef .tc main_arg8) = x8 m c := by
  refine (W2_of_ne m ρ c main_arg8 (by decide)).trans ?_
  show StableHlo.after hostOps0 (W0 m ρ c) (Proc.devRef .tc main_arg8) = _
  after_results <;> rfl

/-! ## The second call's entry: the six arrays it finds -/

/-- The aggregated messages: the hidden features taken at the source indices, weighted, added up by destination. -/
def aggMsgs (c : Dev nD) : FVec Ideal S50000x128 .f32 :=
  aggregated (taken (Cert.SageSpec.hidden (x0 m c) (x5 m c) (x6 m c)) (x3 m c)) (x2 m c) (x4 m c)

theorem entry1_msgs (c : Dev nD) : W4 m ρ c (Proc.devRef .tc main_v8) = aggMsgs m c := by
  show StableHlo.after hostOps1_1 (W3 m ρ c) (Proc.devRef .tc main_v8) = _
  rw [msgs_of]
  show aggregated (StableHlo.after hostOps1 (W2 m ρ c) (Proc.devRef .tc main_v2)) (StableHlo.after hostOps1 (W2 m ρ c) (Proc.devRef .tc main_arg2))
    (StableHlo.after hostOps1 (W2 m ρ c) (Proc.devRef .tc main_arg4)) = _
  rw [taken_of, kept1_arg2, kept1_arg4, exit0_hidden, exit0_arg2, exit0_arg3, exit0_arg4]
  rfl

theorem entry1_wsum (c : Dev nD) :
    W4 m ρ c (Proc.devRef .tc main_v12) = broadcastInDim S50000x1 ![0] bcast_S50000_S50000x1_0 (weightSums (x2 m c) (x4 m c)) := by
  show StableHlo.after hostOps1_1 (W3 m ρ c) (Proc.devRef .tc main_v12) = _
  rw [wsum_of]
  show broadcastInDim S50000x1 ![0] bcast_S50000_S50000x1_0 (weightSums (StableHlo.after hostOps1 (W2 m ρ c) (Proc.devRef .tc main_arg2))
    (StableHlo.after hostOps1 (W2 m ρ c) (Proc.devRef .tc main_arg4))) = _
  rw [kept1_arg2, kept1_arg4, exit0_arg2, exit0_arg4]

theorem entry1_wa (c : Dev nD) : W4 m ρ c (Proc.devRef .tc main_v15) = blockT0 (x7 m c) := by
  show StableHlo.after hostOps1_1 (W3 m ρ c) (Proc.devRef .tc main_v15) = _
  rw [wa_of]
  show blockT0 (StableHlo.after hostOps1 (W2 m ρ c) (Proc.devRef .tc main_arg7)) = _
  rw [kept1_arg7, exit0_arg7]

theorem entry1_wb (c : Dev nD) : W4 m ρ c (Proc.devRef .tc main_v16) = blockT1 (x7 m c) := by
  show StableHlo.after hostOps1_1 (W3 m ρ c) (Proc.devRef .tc main_v16) = _
  rw [wb_of]
  show blockT1 (StableHlo.after hostOps1 (W2 m ρ c) (Proc.devRef .tc main_arg7)) = _
  rw [kept1_arg7, exit0_arg7]

theorem entry1_dst (c : Dev nD) : W4 m ρ c (Proc.devRef .tc main_arg1) = x1 m c := by
  show StableHlo.after hostOps1_1 (W3 m ρ c) (Proc.devRef .tc main_arg1) = _
  rw [kept2_arg1]
  show StableHlo.after hostOps1 (W2 m ρ c) (Proc.devRef .tc main_arg1) = _
  rw [kept1_arg1, exit0_arg1]

theorem entry1_bias (c : Dev nD) : W4 m ρ c (Proc.devRef .tc main_arg8) = x8 m c := by
  show StableHlo.after hostOps1_1 (W3 m ρ c) (Proc.devRef .tc main_arg8) = _
  rw [kept2_arg8]
  show StableHlo.after hostOps1 (W2 m ρ c) (Proc.devRef .tc main_arg8) = _
  rw [kept1_arg8, exit0_arg8]

/-- The same six facts over the second call's arrays at their literal types. -/
theorem msgs_entry (c : Dev nD) : Combine.msgs (V4 m ρ) c = aggMsgs m c := entry1_msgs m ρ c
theorem wsum_entry (c : Dev nD) :
    Combine.wsum (V4 m ρ) c = broadcastInDim S50000x1 ![0] bcast_S50000_S50000x1_0 (weightSums (x2 m c) (x4 m c)) := entry1_wsum m ρ c
theorem wa_entry (c : Dev nD) : Combine.wa (V4 m ρ) c = blockT0 (x7 m c) := entry1_wa m ρ c
theorem wb_entry (c : Dev nD) : Combine.wb (V4 m ρ) c = blockT1 (x7 m c) := entry1_wb m ρ c
theorem dst_entry (c : Dev nD) : Combine.dst (V4 m ρ) c = x1 m c := entry1_dst m ρ c
theorem bias1_entry (c : Dev nD) : Combine.bias (V4 m ρ) c = x8 m c := entry1_bias m ρ c

/-- The transposed first weight block at (k, o) is W(o, k). -/
theorem blockT0_apply (W : FVec Ideal S128x256 .f32) (k o : Fin 128) :
    blockT0 W (ix2 k o) = W (ix2 o (⟨k.val, by omega⟩ : Fin 256)) := by
  unfold blockT0
  rw [transpose_ix2_apply, slice2_axis1_eq]
  exact congrArg W (congrArg (ix2 o) (Fin.ext (by show 0 + k.val = k.val; omega)))

/-- The transposed second weight block at (k, o) is W(o, 128 + k). -/
theorem blockT1_apply (W : FVec Ideal S128x256 .f32) (k o : Fin 128) :
    blockT1 W (ix2 k o) = W (ix2 o (⟨128 + k.val, by omega⟩ : Fin 256)) := by
  unfold blockT1
  rw [transpose_ix2_apply, slice2_axis1_eq]

/-- The weight sums' column at row r is the weight sum of node r. -/
theorem wsum_col_apply (s : FVec Ideal S50000 .f32) (r : Fin 50000) :
    broadcastInDim S50000x1 ![0] bcast_S50000_S50000x1_0 s (ix2 r (0 : Fin 1)) = s (ix1 r) :=
  broadcastInDim_apply _ bcast_S50000_S50000x1_0 s (ix2 r (0 : Fin 1)) (ix1 r) (fun a => match a with
    | ⟨0, _⟩ => by show r.val = if (50000 : Nat) = 1 then 0 else r.val; rw [if_neg (by decide)])

/-- The second call's output: `out` of the aggregated arrays and the arguments. -/
theorem out_res (c : Dev nD) :
    Combine.res (V4 m ρ) c = out (aggMsgs m c) (weightSums (x2 m c) (x4 m c)) (x1 m c) (x7 m c) (x8 m c) := by
  funext i
  unfold Combine.res Combine.resAt out outAt
  refine congrArg₂ max (congrArg₂ (· + ·) (congrArg₂ (· + ·) (Finset.sum_congr rfl fun k _ => ?_) (Finset.sum_congr rfl fun k _ => ?_)) ?_) rfl
  · rw [msgs_entry, wsum_entry, wa_entry, wsum_col_apply, blockT0_apply]
  · rw [dst_entry, wb_entry, blockT1_apply]
  · rw [bias1_entry]

/-- The result buffer after the run. -/
theorem result_eq (c : Dev nD) :
    W5 m ρ c (Proc.devRef .tc main_v17) = out (aggMsgs m c) (weightSums (x2 m c) (x4 m c)) (x1 m c) (x7 m c) (x8 m c) :=
  ((W5_arr m ρ c 6).trans (Combine.final (V4 m ρ) c)).trans (out_res m ρ c)

/-- The kernel program's run: the result buffer at `out` of the aggregated arrays, the arguments unchanged. -/
theorem run : θ_run defs (onTc (τ := τ) (main (F := Ideal))) ⟨m, fun _ => 0, ρ⟩ (fun r => ∀ c : Dev nD,
      r.2.mem ((c.tc : Thread nD τ).loc main_v17) = out (aggMsgs m c) (weightSums (x2 m c) (x4 m c)) (x1 m c) (x7 m c) (x8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (Cert.KernelIdeal.RunV.run m ρ)

end Cert.KernelIdeal.Layer

end
-- ==== Proof.RefRead.lean ====
import proofs.«429332_j23278722744483_3_alg».proof.Proof.Gen.ReferenceIdeal.Run
import proofs.«429332_j23278722744483_3_alg».proof.Proof.Gen.ReferenceIdeal.Read
import proofs.«429332_j23278722744483_3_alg».proof.Proof.Spec
import Idealize.ShloMosaic.Lib.Pipeline.Value
import Idealize.ShloMosaic.Lib.ValueIdx

noncomputable section

namespace Cert.ReferenceIdeal.Layer

open Cert.ReferenceIdeal Cert.ReferenceIdeal.Gen Cert.ReferenceIdeal.Read Idealize.ShloMosaic Idealize.ShloMosaic.ValueIdx
open Cert.SageSpec

/-! # The reference, stage by stage, is the layer's two functions

Its first five operations (transpose, dot_general, two broadcasts of the bias, add) and the relu are `hidden`; its last
twelve (clip of the weight sums, two broadcasts, divide, concatenate with the destination features, transpose of the
weights, dot_general over the 256 joined columns, bias, relu) are `out` of the two aggregated arrays, the contraction
over the joined columns split into its two halves. -/

variable (x0 x1 : (⟨S50000x128, .f32⟩ : BufTy).Contents (Elt Ideal)) (x2 : (⟨S800000, .f32⟩ : BufTy).Contents (Elt Ideal))
  (x3 x4 : (⟨S800000, .i32⟩ : BufTy).Contents (Elt Ideal)) (x5 : (⟨S128x128, .f32⟩ : BufTy).Contents (Elt Ideal))
  (x6 : (⟨S128, .f32⟩ : BufTy).Contents (Elt Ideal)) (x7 : (⟨S128x256, .f32⟩ : BufTy).Contents (Elt Ideal))
  (x8 : (⟨S128, .f32⟩ : BufTy).Contents (Elt Ideal))

/-- The hidden features: the reference's relu stage, index by index. -/
theorem hidden_eq : val_main_v5 (F := Ideal) x0 x5 x6 = hidden x0 x5 x6 := by
  funext i
  have el : ∀ k : Fin 128, lidx_main_v1 i k = ix2 (⟨(i 0).val, (i 0).isLt⟩ : Fin 50000) k := fun k =>
    funext fun a => Fin.ext (by match a with | ⟨0, _⟩ => rfl | ⟨1, _⟩ => rfl)
  have er : ∀ k : Fin 128, idx_main_v0 (ridx_main_v1 i k) = ix2 (⟨(i 1).val, (i 1).isLt⟩ : Fin 128) k := fun k =>
    funext fun a => Fin.ext (by match a with | ⟨0, _⟩ => rfl | ⟨1, _⟩ => rfl)
  have eb : idx_main_v2 (idx_main_v3 i) = ix1 (⟨(i 1).val, (i 1).isLt⟩ : Fin 128) :=
    funext fun a => Fin.ext (by match a with | ⟨0, _⟩ => rfl)
  rw [val_main_v5_apply, val_main_v4_apply, val_main_v1_apply, val_main_v3_apply, val_main_v2_apply,
    val_main_call0_v0_apply, val_main_call0_cst_apply]
  simp only [val_main_v0_apply, el, er, eb]
  rfl

/-- The clamped weight sum the reference divides by, at a row: max(1, ws(r)) broadcast along the row. -/
theorem denom_apply (j : S50000x128.Idx) :
    val_main_v24 (F := Ideal) x2 x4 j
      = max (Ideal.ofBits .f32 0x3F800000#32) (val_main_v21 (F := Ideal) x2 x4 (ix1 (⟨(j 0).val, (j 0).isLt⟩ : Fin 50000))) := by
  have e : idx_main_v23 (idx_main_v24 j) = ix1 (⟨(j 0).val, (j 0).isLt⟩ : Fin 50000) :=
    funext fun a => Fin.ext (by match a with | ⟨0, _⟩ => rfl)
  rw [val_main_v24_apply, val_main_v23_apply, val_main_v22_apply, val_main_call1_v1_apply, val_main_call1_v0_apply,
    val_main_cst_2_apply, e]
  rfl

/-- The joined operand's left half is the normalised messages. -/
theorem joined_left (r : Fin 50000) (k : Fin 128) :
    val_main_v26 (F := Ideal) x0 x1 x2 x3 x4 x5 x6 (ix2 r (⟨k.val, by omega⟩ : Fin 256))
      = val_main_v25 (F := Ideal) x0 x2 x3 x4 x5 x6 (ix2 r k) := by
  unfold val_main_v26
  exact concatenate_pair_apply_left (1 : Fin S50000x256.rank) _ _ concatenates_S50000x128_S50000x128_S50000x256_d1 _ rfl (ix2 r k)
    (fun b => by match b with | ⟨0, _⟩ => rfl | ⟨1, _⟩ => rfl)

/-- The joined operand's right half is the destination features. -/
theorem joined_right (r : Fin 50000) (k : Fin 128) :
    val_main_v26 (F := Ideal) x0 x1 x2 x3 x4 x5 x6 (ix2 r (⟨128 + k.val, by omega⟩ : Fin 256)) = x1 (ix2 r k) := by
  unfold val_main_v26
  exact concatenate_pair_apply_right (1 : Fin S50000x256.rank) _ _ concatenates_S50000x128_S50000x128_S50000x256_d1 _ rfl rfl (ix2 r k)
    (fun b hb => by match b with | ⟨0, _⟩ => rfl | ⟨1, _⟩ => exact absurd rfl hb)
    (by show k.val + 128 = 128 + k.val; omega)

/-- The result: the reference's last stage, index by index, over the two aggregated arrays. -/
theorem out_eq : val_main_v32 (F := Ideal) x0 x1 x2 x3 x4 x5 x6 x7 x8
    = out (val_main_v18 (F := Ideal) x0 x2 x3 x4 x5 x6) (val_main_v21 (F := Ideal) x2 x4) x1 x7 x8 := by
  funext i
  have el : ∀ k : Fin 256, lidx_main_v28 i k = ix2 (⟨(i 0).val, (i 0).isLt⟩ : Fin 50000) k := fun k =>
    funext fun a => Fin.ext (by match a with | ⟨0, _⟩ => rfl | ⟨1, _⟩ => rfl)
  have er : ∀ k : Fin 256, idx_main_v27 (ridx_main_v28 i k) = ix2 (⟨(i 1).val, (i 1).isLt⟩ : Fin 128) k := fun k =>
    funext fun a => Fin.ext (by match a with | ⟨0, _⟩ => rfl | ⟨1, _⟩ => rfl)
  have eb : idx_main_v29 (idx_main_v30 i) = ix1 (⟨(i 1).val, (i 1).isLt⟩ : Fin 128) :=
    funext fun a => Fin.ext (by match a with | ⟨0, _⟩ => rfl)
  rw [val_main_v32_apply, val_main_v31_apply, val_main_v28_apply, val_main_v30_apply, val_main_v29_apply,
    val_main_call2_v0_apply, val_main_call2_cst_apply]
  simp only [val_main_v27_apply, el, er, eb]
  rw [sum_split_halves]
  unfold out outAt
  refine congrArg₂ max (congrArg₂ (· + ·) (congrArg₂ (· + ·) (Finset.sum_congr rfl fun k _ => ?_) (Finset.sum_congr rfl fun k _ => ?_)) ?_) rfl
  · show val_main_v26 (F := Ideal) x0 x1 x2 x3 x4 x5 x6 (ix2 (⟨(i 0).val, (i 0).isLt⟩ : Fin 50000) (⟨k.val, by omega⟩ : Fin 256)) * _ = _
    rw [joined_left, val_main_v25_apply, denom_apply, max_comm]
    rfl
  · show val_main_v26 (F := Ideal) x0 x1 x2 x3 x4 x5 x6 (ix2 (⟨(i 0).val, (i 0).isLt⟩ : Fin 50000) (⟨128 + k.val, by omega⟩ : Fin 256)) * _ = _
    rw [joined_right]
  · rfl

end Cert.ReferenceIdeal.Layer

end
-- ==== Proof.SrcRange.lean ====
import proofs.«429332_j23278722744483_3_alg».proof.Pre_finite_inputs
import proofs.«429332_j23278722744483_3_alg».proof.Proof.Gen.Pre_finite_inputs
import Idealize.ShloMosaic.PureOps.Ideal
import Idealize.ShloMosaic.Lib.Affine
import Idealize.ShloMosaic.Lib.ReduceAll
import Idealize.ShloMosaic.Lib.ValueIdx

noncomputable section

namespace Cert.Pre_finite_inputs.Range

open Cert.Pre_finite_inputs Idealize.ShloMosaic

/-! # What the precondition says of the source indices

The precondition's last conjunct is jnp.all over the edges of (edge_src ≥ -50000) ∧ (edge_src < 50000), printed as a
reduce by `and` of the two signed compares. When the precondition is all ones, both compares are one at every edge. -/

instance : Subsingleton S_.Idx := ⟨fun a b => funext fun d => d.elim0⟩

theorem src_in_range (a0 a1 : FVec Ideal S50000x128 .f32) (a2 : FVec Ideal S800000 .f32) (a3 a4 : IVec S800000 32)
    (a5 : FVec Ideal S128x128 .f32) (a6 : FVec Ideal S128 .f32) (a7 : FVec Ideal S128x256 .f32) (a8 : FVec Ideal S128 .f32)
    (h : fn (F := Ideal) a0 a1 a2 a3 a4 a5 a6 a7 a8 = fun _ => 1#1) (i : S800000.Idx) :
    IntOp.cmpi .sge (a3 i) 4294917296#32 = 1#1 ∧ IntOp.cmpi .slt (a3 i) 50000#32 = 1#1 := by
  have h0 := congrFun h ValueIdx.ix0
  unfold fn fn_part1 fn_part2 at h0
  dsimp only at h0
  obtain ⟨-, h1⟩ := IntOp.andi_eq_one.1 h0
  have h2 := Host.reduce_andi_all _ _ _ _ _ h1 i
  exact IntOp.andi_eq_one.1 h2

end Cert.Pre_finite_inputs.Range

end
-- ==== Proof.lean ====
/- The weighted SAGE layer: the Pallas program (two tiled pallas_calls around a host gather / scatter-add) against its jnp
   reference, over the extended reals.

   Both programs compute, for node r and output feature o,
     relu(∑ₖ (n(r, k) / max(s(r), 1)) · W(o, k) + ∑ₖ h_dst(r, k) · W(o, 128 + k) + W_b(o)),
   where n = segment_sum(hid[edge_src] · w, edge_dst), s = segment_sum(w, edge_dst) and
   hid(r, o) = relu(∑ₖ h_src(r, k) · Q(o, k) + Q_b(o)).
   The kernel program forms hid and the final layer tile by tile (5000 rows a grid point) with the 256-column
   contraction split into its two 128-column halves; the reference contracts the concatenated operand at once. A sum over
   256 terms is the sum of its halves in any commutative monoid, so no finiteness is used.
   The one place the programs differ is the row gather: the kernel program's jnp.take fills rows whose (wrapped) index is
   out of bounds, where the reference's indexing clamps. The precondition keeps edge_src in [-50000, 50000): there the
   wrapped index is in bounds at every edge, the fill never shows, and the two gathers are one. -/
import proofs.«429332_j23278722744483_3_alg».proof.Defs
import proofs.«429332_j23278722744483_3_alg».proof.Proof.Gen.Kernel
import proofs.«429332_j23278722744483_3_alg».proof.Proof.Gen.Kernel.Frame
import proofs.«429332_j23278722744483_3_alg».proof.Proof.Gen.KernelIdeal
import proofs.«429332_j23278722744483_3_alg».proof.Proof.Gen.KernelIdeal.Frame
import proofs.«429332_j23278722744483_3_alg».proof.Proof.Gen.ReferenceIdeal
import proofs.«429332_j23278722744483_3_alg».proof.Proof.Gen.ReferenceIdeal.Run
import proofs.«429332_j23278722744483_3_alg».proof.Proof.Gen.ReferenceIdeal.Read
import proofs.«429332_j23278722744483_3_alg».proof.Proof.Gen.Pre_finite_inputs
import proofs.«429332_j23278722744483_3_alg».proof.Proof.KernelValue
import proofs.«429332_j23278722744483_3_alg».proof.Proof.RefRead
import proofs.«429332_j23278722744483_3_alg».proof.Proof.SrcRange

noncomputable section

namespace Cert.Proof

open Idealize.ShloMosaic Idealize.ShloMosaic.TcCoe Idealize.SL.Sem
open Cert.SageSpec Cert.KernelIdeal.Between Cert.KernelIdeal.Layer

/-- The reference's aggregated messages are the kernel program's, once the bound test passes at every edge: the same
    gather of the same hidden features at the same wrapped indices, the same weights, the same scatter-add. -/
theorem ref_msgs (x0 : FVec Ideal Cert.KernelIdeal.S50000x128 .f32) (x2 : FVec Ideal Cert.KernelIdeal.S800000 .f32)
    (x3 x4 : IVec Cert.KernelIdeal.S800000 32) (x5 : FVec Ideal Cert.KernelIdeal.S128x128 .f32) (x6 : FVec Ideal Cert.KernelIdeal.S128 .f32)
    (he : ∀ i : Cert.KernelIdeal.S800000.Idx, IntOp.cmpi .sge (x3 i) 4294917296#32 = 1#1 ∧ IntOp.cmpi .slt (x3 i) 50000#32 = 1#1) :
    Cert.ReferenceIdeal.Read.val_main_v18 (F := Ideal) x0 x2 x3 x4 x5 x6
      = aggregated (taken (Cert.SageSpec.hidden x0 x5 x6) x3) x2 x4 := by
  rw [taken_eq_gathered _ _ he, ← Cert.ReferenceIdeal.Layer.hidden_eq]
  rfl

/-- The reference's aggregated weights are the kernel program's: the same scatter-add. -/
theorem ref_wsum (x2 : FVec Ideal Cert.KernelIdeal.S800000 .f32) (x4 : IVec Cert.KernelIdeal.S800000 32) :
    Cert.ReferenceIdeal.Read.val_main_v21 (F := Ideal) x2 x4 = weightSums x2 x4 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the extended reals. -/
theorem preserves : Cert.preserves_Kernel_KernelIdeal := trivial

/-- From memories agreeing on the arguments both programs end at `out` of the aggregated arrays. -/
theorem algebraic : Cert.algebraic_KernelIdeal_ReferenceIdeal := by
  intro m ρ m' ρ' hpre hagree
  refine ⟨fun c => out (aggMsgs m c) (weightSums (x2 m c) (x4 m c)) (x1 m c) (x7 m c) (x8 m c), Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  refine (Cert.ReferenceIdeal.Read.val_main_v32_eq _ _ _ _ _ _ _ _ _).trans ?_
  rw [Cert.ReferenceIdeal.Layer.out_eq, e0, e1, e2, e3, e4, e5, e6, e7, e8]
  have he := Cert.Pre_finite_inputs.Range.src_in_range _ _ _ _ _ _ _ _ _ (hpre c)
  rw [ref_msgs _ _ _ _ _ _ he, ref_wsum]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
